-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1000x1024 : Shape := ⟨2, ![1000, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1000x1024 : S_.BroadcastsInDim S1000x1024 (![] : Fin 0 → Fin S1000x1024.rank)
  reducesTo_S1000x1024_S_d0_1 : S1000x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S16384x1024 .f32) (main_arg1 : FVec F S1000x1024 .f32) (main_arg2 : FVec F S1024x1024 .f32) (main_arg3 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1000x1024 .f32 := Host.absf main_arg1
  let main_cst_0 : FVec F S_ .f32 := constant S_ .f32 0x7F800000#32
  let main_v5 : FVec F S1000x1024 .f32 := broadcastInDim S1000x1024 ![] bcast_S_S1000x1024 main_cst_0
  let main_v6 : IVec S1000x1024 1 := cmpf .olt main_v4 main_v5
  let main_c_1 : IVec S_ 1 := constantI S_ 1 1#1
  let main_v7 : IVec S_ 1 := (fun x v => Host.reduce IntOp.andi x v reducesTo_S1000x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S16384x1024 : Shape := ⟨2, ![16384, 1024]⟩
abbrev S1000x1024 : Shape := ⟨2, ![1000, 1024]⟩
abbrev S1024x1024 : Shape := ⟨2, ![1024, 1024]⟩
abbrev S1024 : Shape := ⟨1, ![1024]⟩
abbrev S1024x1000 : Shape := ⟨2, ![1024, 1000]⟩
abbrev S1x1000 : Shape := ⟨2, ![1, 1000]⟩
abbrev S1x1024 : Shape := ⟨2, ![1, 1024]⟩
abbrev S1000 : Shape := ⟨1, ![1000]⟩
abbrev S16384x100 : Shape := ⟨2, ![16384, 100]⟩
abbrev S1024x100 : Shape := ⟨2, ![1024, 100]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1000x1024, .f32⟩
  | .hbm, ⟨2, _⟩ => ⟨S1024x1024, .f32⟩
  | .hbm, ⟨3, _⟩ => ⟨S1024, .f32⟩
  | .hbm, ⟨4, _⟩ => ⟨S1024x1000, .bf16⟩
  | .hbm, ⟨5, _⟩ => ⟨S1x1000, .f32⟩
  | .hbm, ⟨6, _⟩ => ⟨S16384x100, .f32⟩
  | .local _ .vmem, ⟨0, _⟩ => ⟨S1000x1024, .f32⟩
  | .local _ .vmem, ⟨1, _⟩ => ⟨S1024x1024, .f32⟩
  | .local _ .vmem, ⟨2, _⟩ => ⟨S1024, .f32⟩
  | .local _ .vmem, ⟨3, _⟩ => ⟨S1024x1000, .bf16⟩
  | .local _ .vmem, ⟨4, _⟩ => ⟨S1x1000, .f32⟩
  | .local _ .vmem, ⟨5, _⟩ => ⟨S1024x1024, .f32⟩
  | .local _ .vmem, ⟨6, _⟩ => ⟨S1024x1024, .f32⟩
  | .local _ .vmem, ⟨7, _⟩ => ⟨S1024x1000, .bf16⟩
  | .local _ .vmem, ⟨8, _⟩ => ⟨S1x1000, .f32⟩
  | .local _ .vmem, ⟨9, _⟩ => ⟨S1024x100, .f32⟩
  | .local _ .vmem, ⟨10, _⟩ => ⟨S1024x100, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1000x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1000 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1000 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x100 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S1000x1024_S1000x1024_0_0 : ∀ a, (![0, 0] : Fin 2 → Nat) a + S1000x1024.size a ≤ S1000x1024.size a
  h_S1000x1024 : 0 < S1000x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1000x1024 : S1x1024.Broadcasts S1000x1024
  transposes_S1000x1024_p1_0_S1024x1000 : S1000x1024.Transposes [1, 0] S1024x1000
  reduces_S1024x1000_S1000 : S1024x1000.Reduces [0] S1000
  shapeCasts_S1000_S1x1000 : S1000.ShapeCasts S1x1000
  inb_S1x1000_S1x1000_0_0 : ∀ a, (![0, 0] : Fin 2 → Nat) a + S1x1000.size a ≤ S1x1000.size a
  h_S1x1000 : 0 < S1x1000.numel
  inb_S1024x1000_S1024x1000_0_0 : ∀ a, (![0, 0] : Fin 2 → Nat) a + S1024x1000.size a ≤ S1024x1000.size a
  h_S1024x1000 : 0 < S1024x1000.numel
  packedbf16_S1024x1000_S1024x1000_0_0 : (Rect.unit (s := S1024x1000) ![0, 0] S1024x1000.size inb_S1024x1000_S1024x1000_0_0).PackedRows (EltTy.packing .bf16)
  reduces_S1024x1024_S1024 : S1024x1024.Reduces [1] S1024
  shapeCasts_S1024_S1024x1 : S1024.ShapeCasts S1024x1
  shapeCasts_S1024x1000_S1024x1000 : S1024x1000.ShapeCasts S1024x1000
  broadcasts_S1024x1_S1024x1000 : S1024x1.Broadcasts S1024x1000
  shapeCasts_S1x1000_S1x1000 : S1x1000.ShapeCasts S1x1000
  broadcasts_S1x1000_S1024x1000 : S1x1000.Broadcasts S1024x1000
  slices_S1024x1000_o0_0_S1024x100 : S1024x1000.Slices ![0, 0] S1024x100
  slices_S1024x1000_o0_100_S1024x100 : S1024x1000.Slices ![0, 100] S1024x100
  slices_S1024x1000_o0_200_S1024x100 : S1024x1000.Slices ![0, 200] S1024x100
  slices_S1024x1000_o0_300_S1024x100 : S1024x1000.Slices ![0, 300] S1024x100
  slices_S1024x1000_o0_400_S1024x100 : S1024x1000.Slices ![0, 400] S1024x100
  slices_S1024x1000_o0_500_S1024x100 : S1024x1000.Slices ![0, 500] S1024x100
  slices_S1024x1000_o0_600_S1024x100 : S1024x1000.Slices ![0, 600] S1024x100
  slices_S1024x1000_o0_700_S1024x100 : S1024x1000.Slices ![0, 700] S1024x100
  slices_S1024x1000_o0_800_S1024x100 : S1024x1000.Slices ![0, 800] S1024x100
  slices_S1024x1000_o0_900_S1024x100 : S1024x1000.Slices ![0, 900] S1024x100
  inb_S1024x100_S1024x100_0_0 : ∀ a, (![0, 0] : Fin 2 → Nat) a + S1024x100.size a ≤ S1024x100.size a
  h_S1024x100 : 0 < S1024x100.numel
  dot_S1000x1024_S1024x1024_S1000x1024_1_0_0_1_n_n_wf : DotDims.WF S1000x1024 S1024x1024 S1000x1024 [1] [0] [0] [1] [] []
  dot_S1024x1024_S1024x1000_S1024x1000_1_0_0_1_n_n_wf : DotDims.WF S1024x1024 S1024x1000 S1024x1000 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1000x1024.size a ≤ S1000x1024.size a
  hwx0_0 : ∀ i : grid0.Coords, EltTy.bits .f32 = 32 ∨ (Rect.block (s := S1000x1024) S1000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1000.size a ≤ S1024x1000.size a
  hwx0_3 : ∀ i : grid0.Coords, EltTy.bits .bf16 = 32 ∨ (Rect.block (s := S1024x1000) S1024x1000.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1000.size a ≤ S1x1000.size a
  hwx0_4 : ∀ i : grid0.Coords, EltTy.bits .f32 = 32 ∨ (Rect.block (s := S1x1000) S1x1000.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x1024.size a
  hwx1_0 : ∀ i : grid1.Coords, EltTy.bits .f32 = 32 ∨ (Rect.block (s := S16384x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1000.size a ≤ S1024x1000.size a
  hwx1_1 : ∀ i : grid1.Coords, EltTy.bits .bf16 = 32 ∨ (Rect.block (s := S1024x1000) S1024x1000.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1000.size a ≤ S1x1000.size a
  hwx1_2 : ∀ i : grid1.Coords, EltTy.bits .f32 = 32 ∨ (Rect.block (s := S1x1000) S1x1000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x100.size a ≤ S16384x100.size a
  hwx1_3 : ∀ i : grid1.Coords, EltTy.bits .f32 = 32 ∨ (Rect.block (s := S16384x100) S1024x100.size (cc1_transform_3 i) (hinb1_3 i)).WholeWords (EltTy.packing .f32)

variable [Facts₀]

def dot_S1000x1024_S1024x1024_S1000x1024_1_0_0_1_n_n : DotDims S1000x1024 S1024x1024 S1000x1024 where
  lhsContracting := [1]
  rhsContracting := [0]
  lhsNonContracting := [0]
  rhsNonContracting := [1]
  lhsBatch := []
  rhsBatch := []
  wf := dot_S1000x1024_S1024x1024_S1000x1024_1_0_0_1_n_n_wf
def dot_S1024x1024_S1024x1000_S1024x1000_1_0_0_1_n_n : DotDims S1024x1024 S1024x1000 S1024x1000 where
  lhsContracting := [1]
  rhsContracting := [0]
  lhsNonContracting := [0]
  rhsNonContracting := [1]
  lhsBatch := []
  rhsBatch := []
  wf := dot_S1024x1024_S1024x1000_S1024x1000_1_0_0_1_n_n_wf

abbrev win0_0 : Pipeline.Window sig grid0 :=
  Pipeline.Window.ofSpec (Memref.whole main_arg1) S1000x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x1000.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1000.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1024x1000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1x1000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x100.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x1024 : Shape := ⟨2, ![16384, 1024]⟩
abbrev S1000x1024 : Shape := ⟨2, ![1000, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1000 : Shape := ⟨1, ![1000]⟩
abbrev S1024x1000 : Shape := ⟨2, ![1024, 1000]⟩
abbrev S16384x1000 : Shape := ⟨2, ![16384, 1000]⟩
abbrev S1x1000 : Shape := ⟨2, ![1, 1000]⟩
abbrev S16384x10x100 : Shape := ⟨3, ![16384, 10, 100]⟩
abbrev S16384x100 : Shape := ⟨2, ![16384, 100]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1000x1024, .f32⟩
  | .hbm, ⟨2, _⟩ => ⟨S1024x1024, .f32⟩
  | .hbm, ⟨3, _⟩ => ⟨S1024, .f32⟩
  | .hbm, ⟨4, _⟩ => ⟨S1000x1024, .f32⟩
  | .hbm, ⟨5, _⟩ => ⟨S1x1024, .f32⟩
  | .hbm, ⟨6, _⟩ => ⟨S1000x1024, .f32⟩
  | .hbm, ⟨7, _⟩ => ⟨S1000x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S1000x1024, .f32⟩
  | .hbm, ⟨13, _⟩ => ⟨S_, .f32⟩
  | .hbm, ⟨14, _⟩ => ⟨S1000, .f32⟩
  | .hbm, ⟨15, _⟩ => ⟨S1024x1000, .f32⟩
  | .hbm, ⟨16, _⟩ => ⟨S16384x1000, .f32⟩
  | .hbm, ⟨17, _⟩ => ⟨S_, .f32⟩
  | .hbm, ⟨18, _⟩ => ⟨S16384x1000, .f32⟩
  | .hbm, ⟨19, _⟩ => ⟨S16384x1000, .f32⟩
  | .hbm, ⟨20, _⟩ => ⟨S16384x1000, .f32⟩
  | .hbm, ⟨21, _⟩ => ⟨S16384x1000, .f32⟩
  | .hbm, ⟨22, _⟩ => ⟨S1x1000, .f32⟩
  | .hbm, ⟨23, _⟩ => ⟨S16384x1000, .f32⟩
  | .hbm, ⟨24, _⟩ => ⟨S16384x1000, .f32⟩
  | .hbm, ⟨25, _⟩ => ⟨S_, .f32⟩
  | .hbm, ⟨26, _⟩ => ⟨S16384x1000, .f32⟩
  | .hbm, ⟨27, _⟩ => ⟨S16384x1000, .f32⟩
  | .hbm, ⟨28, _⟩ => ⟨S16384x1000, .f32⟩
  | .hbm, ⟨29, _⟩ => ⟨S16384x10x100, .f32⟩
  | .hbm, ⟨30, _⟩ => ⟨S_, .f32⟩
  | .hbm, ⟨31, _⟩ => ⟨S16384x100, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S1000x1024_0_1 : S1x1024.BroadcastsInDim S1000x1024 (![0, 1] : Fin 2 → Fin S1000x1024.rank)
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S1000x1024_S1000_d1 : S1000x1024.ReducesTo [1] S1000
  transposes_S1000x1024_S1024x1000_1_0 : S1000x1024.Transposes [1, 0] S1024x1000
  bcast_S_S16384x1000 : S_.BroadcastsInDim S16384x1000 (![] : Fin 0 → Fin S16384x1000.rank)
  bcast_S16384x1_S16384x1000_0_1 : S16384x1.BroadcastsInDim S16384x1000 (![0, 1] : Fin 2 → Fin S16384x1000.rank)
  bcast_S1000_S1x1000_1 : S1000.BroadcastsInDim S1x1000 (![1] : Fin 1 → Fin S1x1000.rank)
  bcast_S1x1000_S16384x1000_0_1 : S1x1000.BroadcastsInDim S16384x1000 (![0, 1] : Fin 2 → Fin S16384x1000.rank)
  shapeCasts_S16384x1000_S16384x10x100 : S16384x1000.ShapeCasts S16384x10x100
  reducesTo_S16384x10x100_S16384x100_d1 : S16384x10x100.ReducesTo [1] S16384x100
  dot_S1000x1024_S1024x1024_S1000x1024_1_0_0_1_n_n_wf : DotDims.WF S1000x1024 S1024x1024 S1000x1024 [1] [0] [0] [1] [] []
  dot_S16384x1024_S1024x1000_S16384x1000_1_0_0_1_n_n_wf : DotDims.WF S16384x1024 S1024x1000 S16384x1000 [1] [0] [0] [1] [] []

variable [Facts₀]

def dot_S1000x1024_S1024x1024_S1000x1024_1_0_0_1_n_n : DotDims S1000x1024 S1024x1024 S1000x1024 where
  lhsContracting := [1]
  rhsContracting := [0]
  lhsNonContracting := [0]
  rhsNonContracting := [1]
  lhsBatch := []
  rhsBatch := []
  wf := dot_S1000x1024_S1024x1024_S1000x1024_1_0_0_1_n_n_wf
def dot_S16384x1024_S1024x1000_S16384x1000_1_0_0_1_n_n : DotDims S16384x1024 S1024x1000 S16384x1000 where
  lhsContracting := [1]
  rhsContracting := [0]
  lhsNonContracting := [0]
  rhsNonContracting := [1]
  lhsBatch := []
  rhsBatch := []
  wf := dot_S16384x1024_S1024x1000_S16384x1000_1_0_0_1_n_n_wf

class Facts : Prop extends Facts₀ where

variable [Facts]
-- ==== Proof.Spec.lean ====
/-
  The mathematics both programs compute, index by index over the extended reals.

  An encoder maps each of 1000 prototypes `P n` to `e n = P n · W + b` (1024 features). For each of 16384 rows `x r` the
  squared distance to prototype `n` is expanded as `‖x r‖² − 2 (x r · e n) + ‖e n‖²`; the prototypes come in 10 groups of 100
  classes (`n = 100 p + c`), and the result at `(r, c)` is the distance to the nearest of class `c`'s ten prototypes, the
  square root of the squared distance clamped below at zero.

  The two programs differ in ONE place: one takes the minimum of the ten squared distances and then clamps and takes the
  root, the other clamps and takes the root of each and then the minimum. `a ↦ √(max a 0)` is monotone on the extended
  reals (the root of a negative number is the bottom element, the root of `+∞` is `+∞`), and a monotone map commutes with
  `min` on a linear order: `nearest_eq_fold`. No finiteness of the inputs is used.
-/
import Idealize.ShloMosaic.PureOps.Ideal
import Idealize.ShloMosaic.PureOps.Ideal.Laws
import Idealize.ShloMosaic.Lib.ValueIdx

noncomputable section

namespace Cert.Dist

open Idealize.ShloMosaic Idealize.ShloMosaic.ValueIdx

/-- The encoded prototypes, transposed: entry `(f, n)` is feature `f` of `P n · W + b`. -/
def encT (P : (⟨2, ![1000, 1024]⟩ : Shape).Idx → EReal) (W : (⟨2, ![1024, 1024]⟩ : Shape).Idx → EReal)
    (b : (⟨1, ![1024]⟩ : Shape).Idx → EReal) : (⟨2, ![1024, 1000]⟩ : Shape).Idx → EReal :=
  fun j => (∑ k : Fin 1024, P (ix2 (j 1) k) * W (ix2 k (j 0))) + b (ix1 (j 0))

/-- The squared norm of each column of a `[1024, 1000]` array, as one row. -/
def colSq (E : (⟨2, ![1024, 1000]⟩ : Shape).Idx → EReal) : (⟨2, ![1, 1000]⟩ : Shape).Idx → EReal :=
  fun j => ∑ f : Fin 1024, E (ix2 f (j 1)) * E (ix2 f (j 1))

/-- The squared norm of row `r` of an array of rows of 1024 features. -/
def rowSq {R : Nat} (X : (⟨2, ![R, 1024]⟩ : Shape).Idx → EReal) (r : Fin R) : EReal :=
  ∑ f : Fin 1024, X (ix2 r f) * X (ix2 r f)

/-- The inner product of row `r` with column `n` of `E`. -/
def cross {R : Nat} (X : (⟨2, ![R, 1024]⟩ : Shape).Idx → EReal) (E : (⟨2, ![1024, 1000]⟩ : Shape).Idx → EReal)
    (r : Fin R) (n : Fin 1000) : EReal :=
  ∑ f : Fin 1024, X (ix2 r f) * E (ix2 f n)

/-- The factor both programs write as the float `2.0`; its value is never needed. -/
def two : EReal := Ideal.ofBits .f32 0x40000000#32

/-- The expanded squared distance `(‖x r‖² − 2 (x r · e n)) + ‖e n‖²`, with `Q` holding the squared norms. -/
def sqDist {R : Nat} (X : (⟨2, ![R, 1024]⟩ : Shape).Idx → EReal) (E : (⟨2, ![1024, 1000]⟩ : Shape).Idx → EReal)
    (Q : (⟨2, ![1, 1000]⟩ : Shape).Idx → EReal) (r : Fin R) (n : Fin 1000) : EReal :=
  (rowSq X r - two * cross X E r n) + Q (ix2 (0 : Fin 1) n)

/-- Clamp below at the float zero, then the square root. -/
def clampSqrt (a : EReal) : EReal := Ideal.sqrt (max a (Ideal.ofBits .f32 0x00000000#32))

/-- Prototype `p` of class `c`. -/
def protoIdx (p : Fin 10) (c : Fin 100) : Fin 1000 := ⟨p.val * 100 + c.val, by omega⟩

/-- The minimum of ten values, taken left to right. -/
def min10 (d : Fin 10 → EReal) : EReal :=
  min (min (min (min (min (min (min (min (min (d 0) (d 1)) (d 2)) (d 3)) (d 4)) (d 5)) (d 6)) (d 7)) (d 8)) (d 9)

/-- The distance from row `r` to the nearest prototype of class `c`: minimum first, then clamp and root. -/
def nearest {R : Nat} (X : (⟨2, ![R, 1024]⟩ : Shape).Idx → EReal) (E : (⟨2, ![1024, 1000]⟩ : Shape).Idx → EReal)
    (Q : (⟨2, ![1, 1000]⟩ : Shape).Idx → EReal) (r : Fin R) (c : Fin 100) : EReal :=
  clampSqrt (min10 fun p => sqDist X E Q r (protoIdx p c))

/-- The same with the clamp and the root taken of each prototype's squared distance, the minimum folded from `+∞`. -/
def nearestFold {R : Nat} (X : (⟨2, ![R, 1024]⟩ : Shape).Idx → EReal) (E : (⟨2, ![1024, 1000]⟩ : Shape).Idx → EReal)
    (Q : (⟨2, ![1, 1000]⟩ : Shape).Idx → EReal) (r : Fin R) (c : Fin 100) : EReal :=
  (Finset.univ : Finset (Fin 10)).fold min (Ideal.ofBits .f32 0x7F800000#32) fun p => clampSqrt (sqDist X E Q r (protoIdx p c))

/-- The array of nearest-prototype distances of all 16384 rows, from the transposed encoding and its squared norms. -/
def nearestArr (X : (⟨2, ![16384, 1024]⟩ : Shape).Idx → EReal) (E : (⟨2, ![1024, 1000]⟩ : Shape).Idx → EReal)
    (Q : (⟨2, ![1, 1000]⟩ : Shape).Idx → EReal) : (⟨2, ![16384, 100]⟩ : Shape).Idx → EReal :=
  fun j => nearest X E Q (j 0) (j 1)

/-- The whole result array as a function of the four argument arrays. -/
def result (X : (⟨2, ![16384, 1024]⟩ : Shape).Idx → EReal) (P : (⟨2, ![1000, 1024]⟩ : Shape).Idx → EReal)
    (W : (⟨2, ![1024, 1024]⟩ : Shape).Idx → EReal) (b : (⟨1, ![1024]⟩ : Shape).Idx → EReal) :
    (⟨2, ![16384, 100]⟩ : Shape).Idx → EReal :=
  nearestArr X (encT P W b) (colSq (encT P W b))

/-! ## The one law -/

/-- The float pattern of `+∞` denotes the top element. -/
theorem ofBits_inf : Ideal.ofBits .f32 0x7F800000#32 = (⊤ : EReal) := by
  simp [Ideal.ofBits, Ideal.ieee]

/-- The square root is monotone on all of the extended reals: below zero it is the bottom element. -/
theorem sqrt_mono : Monotone Ideal.sqrt := by
  intro a b hab
  induction a using EReal.rec with
  | bot => exact bot_le
  | top =>
    have hb : b = ⊤ := top_le_iff.mp hab
    subst hb; exact le_rfl
  | coe x =>
    induction b using EReal.rec with
    | bot => exact absurd hab (by simp)
    | top => exact le_top
    | coe y =>
      have hxy : x ≤ y := EReal.coe_le_coe_iff.mp hab
      rw [Ideal.sqrt_coe, Ideal.sqrt_coe]
      by_cases hx : x < 0
      · rw [if_pos hx]; exact bot_le
      · have hy : ¬ y < 0 := fun h => hx (lt_of_le_of_lt hxy h)
        rw [if_neg hx, if_neg hy]
        exact EReal.coe_le_coe_iff.mpr (Real.sqrt_le_sqrt hxy)

theorem clampSqrt_mono : Monotone clampSqrt := fun a b hab =>
  sqrt_mono (max_le_max hab le_rfl)

theorem clampSqrt_top : clampSqrt ⊤ = ⊤ := by
  unfold clampSqrt
  rw [max_eq_left le_top]
  rfl

/-- A fold of `min` over ten indices from `b` is `b` joined to the left-to-right minimum. -/
theorem fold_min_fin10 (b : EReal) (d : Fin 10 → EReal) :
    (Finset.univ : Finset (Fin 10)).fold min b d = min b (min10 d) := by
  simp only [Fin.univ_succ, Finset.fold_cons, Finset.fold_map, Finset.univ_unique, Finset.fold_singleton]
  show min (d 0) (min (d 1) (min (d 2) (min (d 3) (min (d 4) (min (d 5) (min (d 6) (min (d 7) (min (d 8) (min (d 9) b))))))))) = _
  unfold min10
  ac_rfl

/-- Minimum then clamp-and-root is clamp-and-root of each then minimum from `+∞`. -/
theorem nearest_eq_fold {R : Nat} (X : (⟨2, ![R, 1024]⟩ : Shape).Idx → EReal) (E : (⟨2, ![1024, 1000]⟩ : Shape).Idx → EReal)
    (Q : (⟨2, ![1, 1000]⟩ : Shape).Idx → EReal) (r : Fin R) (c : Fin 100) :
    nearestFold X E Q r c = nearest X E Q r c := by
  unfold nearestFold nearest
  rw [ofBits_inf, ← clampSqrt_top]
  rw [Finset.fold_hom (op := min) (op' := min) (m := clampSqrt) (fun x y => clampSqrt_mono.map_min)]
  rw [fold_min_fin10, min_eq_right le_top]

/-- The nearest-prototype distance depends on `X` only through row `r`: a block of rows gives what the whole array gives. -/
theorem nearest_congr {R R' : Nat} (X : (⟨2, ![R, 1024]⟩ : Shape).Idx → EReal) (X' : (⟨2, ![R', 1024]⟩ : Shape).Idx → EReal)
    (E E' : (⟨2, ![1024, 1000]⟩ : Shape).Idx → EReal) (Q Q' : (⟨2, ![1, 1000]⟩ : Shape).Idx → EReal) (r : Fin R) (r' : Fin R')
    (h : ∀ f : Fin 1024, X' (ix2 r' f) = X (ix2 r f)) (hE : ∀ y, E' y = E y) (hQ : ∀ y, Q' y = Q y) (c : Fin 100) :
    nearest X' E' Q' r' c = nearest X E Q r c := by
  obtain rfl : E' = E := funext hE
  obtain rfl : Q' = Q := funext hQ
  unfold nearest sqDist rowSq cross
  simp only [h]

/-- The transposed encoding and its squared norms depend on the arrays only through their entries. -/
theorem encT_congr (P P' : (⟨2, ![1000, 1024]⟩ : Shape).Idx → EReal) (W W' : (⟨2, ![1024, 1024]⟩ : Shape).Idx → EReal)
    (b b' : (⟨1, ![1024]⟩ : Shape).Idx → EReal) (hP : ∀ y, P' y = P y) (hW : ∀ y, W' y = W y) (hb : ∀ y, b' y = b y) :
    encT P' W' b' = encT P W b := by
  obtain rfl : P' = P := funext hP
  obtain rfl : W' = W := funext hW
  obtain rfl : b' = b := funext hb
  rfl

end Cert.Dist

end
-- ==== Proof.KernelPayload.lean ====
/-
  The two kernel bodies, read at an index over the extended reals.

  The encoder body computes `e = P · W + b` by one matrix product into a zero accumulator (a sum over the 1024 input
  features), transposes it, and stores the transpose and the sum of its squares down each column. The distance body
  computes, for its 1024 rows, `(‖x‖² − 2 (x · e)) + ‖e‖²` against all 1000 columns, takes the minimum over the ten column
  groups `100 p + c` by nine pairwise minima of column slices, clamps at zero and takes the root.
  A change of float format is the identity on the extended reals, so the bf16 casts drop out.
-/
import proofs.«120972_j86114094284878_1_alg».proof.Proof.Gen.KernelIdeal.Skeleton
import proofs.«120972_j86114094284878_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.Dist

variable {α : Type}

/-! ## Two layout forms of a column: `[a] → [a, 1]` and `[a, 1] → [a, b]` -/

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The encoder's matrix product at an index -/

theorem lhs_enc_0 (i : S1000x1024.Idx) (q : dot_S1000x1024_S1024x1024_S1000x1024_1_0_0_1_n_n.contr.Idx) :
    (dot_S1000x1024_S1024x1024_S1000x1024_1_0_0_1_n_n.lhsIdx i q 0).val = (i 0).val := by
  unfold DotDims.lhsIdx
  rw [dif_neg (show ¬(0 : Fin S1000x1024.rank) ∈ dot_S1000x1024_S1024x1024_S1000x1024_1_0_0_1_n_n.lhsBatch by decide), dif_pos (show (0 : Fin S1000x1024.rank) ∈ dot_S1000x1024_S1024x1024_S1000x1024_1_0_0_1_n_n.lhsNonContracting by decide)]
  rfl
theorem lhs_enc_1 (i : S1000x1024.Idx) (q : dot_S1000x1024_S1024x1024_S1000x1024_1_0_0_1_n_n.contr.Idx) :
    (dot_S1000x1024_S1024x1024_S1000x1024_1_0_0_1_n_n.lhsIdx i q 1).val = (q ⟨0, by decide⟩).val :=
  dot_S1000x1024_S1024x1024_S1000x1024_1_0_0_1_n_n.lhsIdx_val_of_single rfl i q
theorem rhs_enc_0 (i : S1000x1024.Idx) (q : dot_S1000x1024_S1024x1024_S1000x1024_1_0_0_1_n_n.contr.Idx) :
    (dot_S1000x1024_S1024x1024_S1000x1024_1_0_0_1_n_n.rhsIdx i q 0).val = (q ⟨0, by decide⟩).val :=
  dot_S1000x1024_S1024x1024_S1000x1024_1_0_0_1_n_n.rhsIdx_val_of_single rfl i q
theorem rhs_enc_1 (i : S1000x1024.Idx) (q : dot_S1000x1024_S1024x1024_S1000x1024_1_0_0_1_n_n.contr.Idx) :
    (dot_S1000x1024_S1024x1024_S1000x1024_1_0_0_1_n_n.rhsIdx i q 1).val = (i 1).val := by
  unfold DotDims.rhsIdx
  rw [dif_neg (show ¬(1 : Fin S1024x1024.rank) ∈ dot_S1000x1024_S1024x1024_S1000x1024_1_0_0_1_n_n.rhsBatch by decide), dif_pos (show (1 : Fin S1024x1024.rank) ∈ dot_S1000x1024_S1024x1024_S1000x1024_1_0_0_1_n_n.rhsNonContracting by decide)]
  rfl

/-- The encoder's product into the zero accumulator, at `(n, f)`: the sum over the input features. -/
theorem encMatmul_apply (l : FVec Ideal S1000x1024 .bf16) (r : FVec Ideal S1024x1024 .bf16) (n : Fin 1000) (f : Fin 1024) :
    matmul dot_S1000x1024_S1024x1024_S1000x1024_1_0_0_1_n_n none l r (constant S1000x1024 .f32 0x00000000#32) (ix2 n f)
      = ∑ k : Fin 1024, l (ix2 n k) * r (ix2 k f) := by
  simp only [matmul]
  rw [Ideal.matmul_constant_zero_apply, ← Equiv.sum_comp (ValueIdx.contrEquiv1 dot_S1000x1024_S1024x1024_S1000x1024_1_0_0_1_n_n 1024 rfl rfl).symm]
  refine Finset.sum_congr rfl fun k _ => ?_
  have hk := ValueIdx.contrEquiv1_symm_val dot_S1000x1024_S1024x1024_S1000x1024_1_0_0_1_n_n 1024 rfl rfl k
  have el : dot_S1000x1024_S1024x1024_S1000x1024_1_0_0_1_n_n.lhsIdx (ix2 n f) ((ValueIdx.contrEquiv1 dot_S1000x1024_S1024x1024_S1000x1024_1_0_0_1_n_n 1024 rfl rfl).symm k) = ix2 n k := funext fun a => Fin.ext (by
    match a with
    | ⟨0, _⟩ => exact lhs_enc_0 _ _
    | ⟨1, _⟩ => exact (lhs_enc_1 _ _).trans hk)
  have er : dot_S1000x1024_S1024x1024_S1000x1024_1_0_0_1_n_n.rhsIdx (ix2 n f) ((ValueIdx.contrEquiv1 dot_S1000x1024_S1024x1024_S1000x1024_1_0_0_1_n_n 1024 rfl rfl).symm k) = ix2 k f := funext fun a => Fin.ext (by
    match a with
    | ⟨0, _⟩ => exact (rhs_enc_0 _ _).trans hk
    | ⟨1, _⟩ => exact rhs_enc_1 _ _)
  rw [el, er]

/-! ## The distance body's matrix product at an index -/

theorem lhs_dist_0 (i : S1024x1000.Idx) (q : dot_S1024x1024_S1024x1000_S1024x1000_1_0_0_1_n_n.contr.Idx) :
    (dot_S1024x1024_S1024x1000_S1024x1000_1_0_0_1_n_n.lhsIdx i q 0).val = (i 0).val := by
  unfold DotDims.lhsIdx
  rw [dif_neg (show ¬(0 : Fin S1024x1024.rank) ∈ dot_S1024x1024_S1024x1000_S1024x1000_1_0_0_1_n_n.lhsBatch by decide), dif_pos (show (0 : Fin S1024x1024.rank) ∈ dot_S1024x1024_S1024x1000_S1024x1000_1_0_0_1_n_n.lhsNonContracting by decide)]
  rfl
theorem lhs_dist_1 (i : S1024x1000.Idx) (q : dot_S1024x1024_S1024x1000_S1024x1000_1_0_0_1_n_n.contr.Idx) :
    (dot_S1024x1024_S1024x1000_S1024x1000_1_0_0_1_n_n.lhsIdx i q 1).val = (q ⟨0, by decide⟩).val :=
  dot_S1024x1024_S1024x1000_S1024x1000_1_0_0_1_n_n.lhsIdx_val_of_single rfl i q
theorem rhs_dist_0 (i : S1024x1000.Idx) (q : dot_S1024x1024_S1024x1000_S1024x1000_1_0_0_1_n_n.contr.Idx) :
    (dot_S1024x1024_S1024x1000_S1024x1000_1_0_0_1_n_n.rhsIdx i q 0).val = (q ⟨0, by decide⟩).val :=
  dot_S1024x1024_S1024x1000_S1024x1000_1_0_0_1_n_n.rhsIdx_val_of_single rfl i q
theorem rhs_dist_1 (i : S1024x1000.Idx) (q : dot_S1024x1024_S1024x1000_S1024x1000_1_0_0_1_n_n.contr.Idx) :
    (dot_S1024x1024_S1024x1000_S1024x1000_1_0_0_1_n_n.rhsIdx i q 1).val = (i 1).val := by
  unfold DotDims.rhsIdx
  rw [dif_neg (show ¬(1 : Fin S1024x1000.rank) ∈ dot_S1024x1024_S1024x1000_S1024x1000_1_0_0_1_n_n.rhsBatch by decide), dif_pos (show (1 : Fin S1024x1000.rank) ∈ dot_S1024x1024_S1024x1000_S1024x1000_1_0_0_1_n_n.rhsNonContracting by decide)]
  rfl

/-- The distance body's product into the zero accumulator, at `(q, n)`: the sum over the features. -/
theorem distMatmul_apply (l : FVec Ideal S1024x1024 .bf16) (r : FVec Ideal S1024x1000 .bf16) (q : Fin 1024) (n : Fin 1000) :
    matmul dot_S1024x1024_S1024x1000_S1024x1000_1_0_0_1_n_n none l r (constant S1024x1000 .f32 0x00000000#32) (ix2 q n)
      = ∑ k : Fin 1024, l (ix2 q k) * r (ix2 k n) := by
  simp only [matmul]
  rw [Ideal.matmul_constant_zero_apply, ← Equiv.sum_comp (ValueIdx.contrEquiv1 dot_S1024x1024_S1024x1000_S1024x1000_1_0_0_1_n_n 1024 rfl rfl).symm]
  refine Finset.sum_congr rfl fun k _ => ?_
  have hk := ValueIdx.contrEquiv1_symm_val dot_S1024x1024_S1024x1000_S1024x1000_1_0_0_1_n_n 1024 rfl rfl k
  have el : dot_S1024x1024_S1024x1000_S1024x1000_1_0_0_1_n_n.lhsIdx (ix2 q n) ((ValueIdx.contrEquiv1 dot_S1024x1024_S1024x1000_S1024x1000_1_0_0_1_n_n 1024 rfl rfl).symm k) = ix2 q k := funext fun a => Fin.ext (by
    match a with
    | ⟨0, _⟩ => exact lhs_dist_0 _ _
    | ⟨1, _⟩ => exact (lhs_dist_1 _ _).trans hk)
  have er : dot_S1024x1024_S1024x1000_S1024x1000_1_0_0_1_n_n.rhsIdx (ix2 q n) ((ValueIdx.contrEquiv1 dot_S1024x1024_S1024x1000_S1024x1000_1_0_0_1_n_n 1024 rfl rfl).symm k) = ix2 k n := funext fun a => Fin.ext (by
    match a with
    | ⟨0, _⟩ => exact (rhs_dist_0 _ _).trans hk
    | ⟨1, _⟩ => exact rhs_dist_1 _ _)
  rw [el, er]

/-! ## The two sums of squares -/

/-- The sum down the columns of a `[1024, 1000]` array, at column `n`. -/
theorem colSum_apply (v : FVec Ideal S1024x1000 .f32) (n : Fin 1000) :
    multiReduction .add [0] S1000 v 0x00000000#32 reduces_S1024x1000_S1000 (.inl rfl) rfl (ix1 n) = ∑ f : Fin 1024, v (ix2 f n) := by
  refine (Ideal.multiReduction_add_single v 0x00000000#32 reduces_S1024x1000_S1000 (.inl rfl) rfl (ix1 n)).trans ?_
  refine Finset.sum_congr rfl fun f _ => ?_
  exact congrArg v (funext fun a => Fin.ext (by match a with | ⟨0, _⟩ => rfl | ⟨1, _⟩ => rfl))

/-- The sum along the rows of a `[1024, 1024]` array, at row `q`. -/
theorem rowSum_apply (v : FVec Ideal S1024x1024 .f32) (q : Fin 1024) :
    multiReduction .add [1] S1024 v 0x00000000#32 reduces_S1024x1024_S1024 (.inl rfl) rfl (ix1 q) = ∑ f : Fin 1024, v (ix2 q f) := by
  refine (Ideal.multiReduction_add_single v 0x00000000#32 reduces_S1024x1024_S1024 (.inl rfl) rfl (ix1 q)).trans ?_
  refine Finset.sum_congr rfl fun f _ => ?_
  exact congrArg v (funext fun a => Fin.ext (by match a with | ⟨0, _⟩ => rfl | ⟨1, _⟩ => rfl))

/-! ## The encoder body -/

/-- The transposed encoding at `(f, n)`. -/
theorem pay1_apply (x0 : FVec Ideal S1000x1024 .f32) (x2 : FVec Ideal S1024x1024 .f32) (x5 : FVec Ideal S1024 .f32) (f : Fin 1024) (n : Fin 1000) :
    k0_pay1 (F := Ideal) x0 x2 x5 (ix2 f n) = encT x0 x2 x5 (ix2 f n) := by
  show transpose S1024x1000 [1, 0] (addf (matmul dot_S1000x1024_S1024x1024_S1000x1024_1_0_0_1_n_n none (truncf .bf16 x0 bitsLt_bf16_f32) (truncf .bf16 x2 bitsLt_bf16_f32) (constant S1000x1024 .f32 0x00000000#32))
      (broadcastTo S1000x1024 (shapeCast S1x1024 x5 shapeCasts_S1024_S1x1024) broadcasts_S1x1024_S1000x1024)) transposes_S1000x1024_p1_0_S1024x1000 (ix2 f n) = _
  rw [transpose_ix2_apply, addf_apply, encMatmul_apply, broadcastTo_1b_ab_apply, shapeCast_a_1a_apply]
  rfl

/-- The stored transpose is the transposed encoding. -/
theorem pay3_eq (x0 : FVec Ideal S1000x1024 .f32) (x2 : FVec Ideal S1024x1024 .f32) (x5 : FVec Ideal S1024 .f32) :
    k0_pay3 (F := Ideal) x0 x2 x5 = encT x0 x2 x5 := by
  funext j
  obtain ⟨f, n, rfl⟩ : ∃ (f : Fin 1024) (n : Fin 1000), j = ix2 f n := ⟨j 0, j 1, eq_ix2 j⟩
  exact pay1_apply x0 x2 x5 f n

/-- The stored row of squared norms. -/
theorem pay2_eq (x0 : FVec Ideal S1000x1024 .f32) (x2 : FVec Ideal S1024x1024 .f32) (x5 : FVec Ideal S1024 .f32) :
    k0_pay2 (F := Ideal) x0 x2 x5 = colSq (encT x0 x2 x5) := by
  funext j
  obtain ⟨u, n, rfl⟩ : ∃ (u : Fin 1) (n : Fin 1000), j = ix2 u n := ⟨j 0, j 1, eq_ix2 j⟩
  show shapeCast S1x1000 (multiReduction .add [0] S1000 (mulf (k0_pay1 (F := Ideal) x0 x2 x5) (k0_pay1 (F := Ideal) x0 x2 x5)) 0x00000000#32 reduces_S1024x1000_S1000 (.inl rfl) rfl) shapeCasts_S1000_S1x1000 (ix2 u n) = _
  refine (shapeCast_a_1a_apply _ shapeCasts_S1000_S1x1000 u n).trans ?_
  refine (colSum_apply _ n).trans ?_
  unfold colSq
  refine Finset.sum_congr rfl fun f _ => ?_
  rw [mulf_apply, pay1_apply]

end Cert.KernelIdeal.Pay

end
-- ==== Proof.KernelDistBody.lean ====
/-
  The distance body at an index `(q, c)` of its `[1024, 100]` block: the nearest-prototype distance of the specification,
  for the block's row `q`, of the block `x`, the transposed encoding `E` and the row of squared norms `Q` it loads.

  The body forms the `[1024, 1000]` array of expanded squared distances once (`sqBody`), cuts it into ten `[1024, 100]` column
  slices at offsets `100 p`, and joins them by nine pairwise minima: column `c` of slice `p` is column `100 p + c`.
-/
import proofs.«120972_j86114094284878_1_alg».proof.Proof.KernelPayload

noncomputable section

namespace Cert.KernelIdeal.Pay

open Cert.KernelIdeal Cert.KernelIdeal.Gen Idealize.ShloMosaic Idealize.ShloMosaic.ValueIdx Cert.Dist

/-- The array of expanded squared distances the body forms before it slices: `(‖x‖² − 2 (x · E)) + Q`, the row norms as a
    column broadcast along the rows, the norms `Q` as a row broadcast down the columns. -/
def sqBody (x0 : FVec Ideal S1024x1024 .f32) (x5 : FVec Ideal S1024x1000 .bf16) (x12 : FVec Ideal S1x1000 .f32) : FVec Ideal S1024x1000 .f32 :=
  addf (subf (broadcastTo S1024x1000 (shapeCast S1024x1 (multiReduction .add [1] S1024 (mulf x0 x0) 0x00000000#32 reduces_S1024x1024_S1024 (.inl rfl) rfl) shapeCasts_S1024_S1024x1) broadcasts_S1024x1_S1024x1000)
      (mulf (broadcast S1024x1000 (Scalar.ofBits .f32 0x40000000#32)) (matmul dot_S1024x1024_S1024x1000_S1024x1000_1_0_0_1_n_n none (truncf .bf16 x0 bitsLt_bf16_f32) (shapeCast S1024x1000 x5 shapeCasts_S1024x1000_S1024x1000) (constant S1024x1000 .f32 0x00000000#32))))
    (broadcastTo S1024x1000 (shapeCast S1x1000 x12 shapeCasts_S1x1000_S1x1000) broadcasts_S1x1000_S1024x1000)

/-- The row norms, cast to a column and broadcast along the rows, at `(q, n)`. -/
theorem rowNorm_at (x0 : FVec Ideal S1024x1024 .f32) (q : Fin 1024) (n : Fin 1000) :
    broadcastTo S1024x1000 (shapeCast S1024x1 (multiReduction .add [1] S1024 (mulf x0 x0) 0x00000000#32 reduces_S1024x1024_S1024 (.inl rfl) rfl) shapeCasts_S1024_S1024x1) broadcasts_S1024x1_S1024x1000 (ix2 q n)
      = rowSq x0 q :=
  (broadcastTo_a1_ab_apply _ broadcasts_S1024x1_S1024x1000 q n).trans
    ((shapeCast_a_a1_apply _ shapeCasts_S1024_S1024x1 q 0).trans ((rowSum_apply _ q).trans rfl))

/-- The product with the loaded transposed encoding at `(q, n)`. -/
theorem cross_at (x0 : FVec Ideal S1024x1024 .f32) (x5 : FVec Ideal S1024x1000 .bf16) (q : Fin 1024) (n : Fin 1000) :
    matmul dot_S1024x1024_S1024x1000_S1024x1000_1_0_0_1_n_n none (truncf .bf16 x0 bitsLt_bf16_f32) (shapeCast S1024x1000 x5 shapeCasts_S1024x1000_S1024x1000) (constant S1024x1000 .f32 0x00000000#32) (ix2 q n)
      = cross x0 x5 q n := by
  refine (distMatmul_apply _ _ q n).trans ?_
  rw [shapeCast_self]
  rfl

/-- The loaded row of norms broadcast down the columns, at `(q, n)`. -/
theorem norms_at (x12 : FVec Ideal S1x1000 .f32) (q : Fin 1024) (n : Fin 1000) :
    broadcastTo S1024x1000 (shapeCast S1x1000 x12 shapeCasts_S1x1000_S1x1000) broadcasts_S1x1000_S1024x1000 (ix2 q n) = x12 (ix2 (0 : Fin 1) n) := by
  refine (broadcastTo_1b_ab_apply _ broadcasts_S1x1000_S1024x1000 q n).trans ?_
  rw [shapeCast_self]

/-- The body's squared distances at `(q, n)`. -/
theorem sqBody_apply (x0 : FVec Ideal S1024x1024 .f32) (x5 : FVec Ideal S1024x1000 .bf16) (x12 : FVec Ideal S1x1000 .f32) (q : Fin 1024) (n : Fin 1000) :
    sqBody x0 x5 x12 (ix2 q n) = sqDist x0 x5 x12 q n := by
  unfold sqBody sqDist
  exact congrArg₂ (· + ·) (congrArg₂ (· - ·) (rowNorm_at x0 q n) (congrArg₂ (· * ·) rfl (cross_at x0 x5 q n))) (norms_at x12 q n)

/-- The stored value is clamp and root of the nine pairwise minima of the ten column slices. -/
theorem k1_pay1_eq (x0 : FVec Ideal S1024x1024 .f32) (x5 : FVec Ideal S1024x1000 .bf16) (x12 : FVec Ideal S1x1000 .f32) :
    k1_pay1 (F := Ideal) x0 x5 x12
      = sqrt (maximumf (minimumf (minimumf (minimumf (minimumf (minimumf (minimumf (minimumf (minimumf (minimumf (extractStridedSlice S1024x100 ![0, 0] (sqBody x0 x5 x12) slices_S1024x1000_o0_0_S1024x100) (extractStridedSlice S1024x100 ![0, 100] (sqBody x0 x5 x12) slices_S1024x1000_o0_100_S1024x100)) (extractStridedSlice S1024x100 ![0, 200] (sqBody x0 x5 x12) slices_S1024x1000_o0_200_S1024x100)) (extractStridedSlice S1024x100 ![0, 300] (sqBody x0 x5 x12) slices_S1024x1000_o0_300_S1024x100)) (extractStridedSlice S1024x100 ![0, 400] (sqBody x0 x5 x12) slices_S1024x1000_o0_400_S1024x100)) (extractStridedSlice S1024x100 ![0, 500] (sqBody x0 x5 x12) slices_S1024x1000_o0_500_S1024x100)) (extractStridedSlice S1024x100 ![0, 600] (sqBody x0 x5 x12) slices_S1024x1000_o0_600_S1024x100)) (extractStridedSlice S1024x100 ![0, 700] (sqBody x0 x5 x12) slices_S1024x1000_o0_700_S1024x100)) (extractStridedSlice S1024x100 ![0, 800] (sqBody x0 x5 x12) slices_S1024x1000_o0_800_S1024x100)) (extractStridedSlice S1024x100 ![0, 900] (sqBody x0 x5 x12) slices_S1024x1000_o0_900_S1024x100)) (broadcast S1024x100 (Scalar.ofBits .f32 0x00000000#32))) := rfl

/-- The stored value at `(q, c)`. -/
theorem pay_dist_apply (x0 : FVec Ideal S1024x1024 .f32) (x5 : FVec Ideal S1024x1000 .bf16) (x12 : FVec Ideal S1x1000 .f32) (q : Fin 1024) (c : Fin 100) :
    k1_pay1 (F := Ideal) x0 x5 x12 (ix2 q c) = nearest x0 x5 x12 q c := by
  rw [k1_pay1_eq]
  show Ideal.sqrt (max (min (min (min (min (min (min (min (min (min (extractStridedSlice S1024x100 ![0, 0] (sqBody x0 x5 x12) slices_S1024x1000_o0_0_S1024x100 (ix2 q c)) (extractStridedSlice S1024x100 ![0, 100] (sqBody x0 x5 x12) slices_S1024x1000_o0_100_S1024x100 (ix2 q c))) (extractStridedSlice S1024x100 ![0, 200] (sqBody x0 x5 x12) slices_S1024x1000_o0_200_S1024x100 (ix2 q c))) (extractStridedSlice S1024x100 ![0, 300] (sqBody x0 x5 x12) slices_S1024x1000_o0_300_S1024x100 (ix2 q c))) (extractStridedSlice S1024x100 ![0, 400] (sqBody x0 x5 x12) slices_S1024x1000_o0_400_S1024x100 (ix2 q c))) (extractStridedSlice S1024x100 ![0, 500] (sqBody x0 x5 x12) slices_S1024x1000_o0_500_S1024x100 (ix2 q c))) (extractStridedSlice S1024x100 ![0, 600] (sqBody x0 x5 x12) slices_S1024x1000_o0_600_S1024x100 (ix2 q c))) (extractStridedSlice S1024x100 ![0, 700] (sqBody x0 x5 x12) slices_S1024x1000_o0_700_S1024x100 (ix2 q c))) (extractStridedSlice S1024x100 ![0, 800] (sqBody x0 x5 x12) slices_S1024x1000_o0_800_S1024x100 (ix2 q c))) (extractStridedSlice S1024x100 ![0, 900] (sqBody x0 x5 x12) slices_S1024x1000_o0_900_S1024x100 (ix2 q c))) (Ideal.ofBits .f32 0x00000000#32)) = _
  simp only [slice2_axis1_eq, sqBody_apply]
  rfl

end Cert.KernelIdeal.Pay

end
-- ==== Proof.KernelArrays.lean ====
/-
  From blocks to arrays: what each region's output arrays hold after its run, as functions of the arrays the region
  finds at its entry.

  The encoder region has one grid point and every window's block is its whole array: the two output arrays are what the
  body stores, the transposed encoding and the row of its squared column norms, of the three argument arrays.
  The distance region has sixteen points; point `t` reads rows `1024 t … 1024 t + 1023` of `x` and the whole of the
  encoder's two outputs, and writes rows `1024 t … 1024 t + 1023` of the result. Row `q` of block `t` is row `1024 t + q` of
  the array on both sides, the sixteen row blocks cover the result, and the nearest-prototype distance of a row depends
  on `x` only through that row.
-/
import proofs.«120972_j86114094284878_1_alg».proof.Proof.Gen.KernelIdeal.Frame
import proofs.«120972_j86114094284878_1_alg».proof.Proof.KernelDistBody

set_option maxRecDepth 16384

noncomputable section

namespace Cert.KernelIdeal.Arr

open Cert.KernelIdeal Cert.KernelIdeal.Gen Cert.KernelIdeal.Pay Cert.Dist
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## The encoder region -/

/-- At the region's one point every window's block index is zero on every axis. -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- What the point writes back to the first output window: its block of the transposed encoding of the arguments. -/
theorem flushed0_3 (c : Dev nD) (t : Fin cfg0.N) :
    (dat0 V c).flushed 3 t = ((cfg0.win 3).blk t).view.read (Elt Ideal) (encT (V c main_arg1) (V c main_arg2) (V c main_arg3)) := by
  show (cfg0.win 3).cut (grid0.coords t) ((dat0 V c).after 3 t) = _
  rw [after0_3]
  unfold out0_3
  rw [View.canon_unit_zero hz2]
  simp only [View.ld_unit_zero (S := S1000x1024) hz2, View.ld_unit_zero (S := S1024x1024) hz2, View.ld_unit_zero (S := S1024) hz1]
  obtain ⟨e00, e01, e10, e11, e20, e30, e31, e40, e41⟩ := idx0 t
  funext j
  show k0_pay3 (F := Ideal) (iblk0 V c 0 t) (iblk0 V c 1 t) (iblk0 V c 2 t) j
    = encT (V c main_arg1) (V c main_arg2) (V c main_arg3) (((cfg0.win 3).blk t).view.emb j)
  have hj : ((cfg0.win 3).blk t).view.emb j = j := by
    funext a; apply Fin.ext
    match a with
    | ⟨0, _⟩ => show win0_3.index t (0 : Fin 2) * 1024 + 1 * (j 0).val = (j 0).val; omega
    | ⟨1, _⟩ => show win0_3.index t (1 : Fin 2) * 1000 + 1 * (j 1).val = (j 1).val; omega
  rw [hj]
  refine (congrFun (pay3_eq (iblk0 V c 0 t) (iblk0 V c 1 t) (iblk0 V c 2 t)) j).trans ?_
  refine congrFun (encT_congr (V c main_arg1) (iblk0 V c 0 t) (V c main_arg2) (iblk0 V c 1 t) (V c main_arg3) (iblk0 V c 2 t) ?_ ?_ ?_) j
  · intro y
    show V c main_arg1 (((cfg0.win 0).blk t).view.emb y) = V c main_arg1 y
    refine congrArg _ (funext fun a => Fin.ext ?_)
    match a with
    | ⟨0, _⟩ => show win0_0.index t (0 : Fin 2) * 1000 + 1 * (y 0).val = (y 0).val; omega
    | ⟨1, _⟩ => show win0_0.index t (1 : Fin 2) * 1024 + 1 * (y 1).val = (y 1).val; omega
  · intro y
    show V c main_arg2 (((cfg0.win 1).blk t).view.emb y) = V c main_arg2 y
    refine congrArg _ (funext fun a => Fin.ext ?_)
    match a with
    | ⟨0, _⟩ => show win0_1.index t (0 : Fin 2) * 1024 + 1 * (y 0).val = (y 0).val; omega
    | ⟨1, _⟩ => show win0_1.index t (1 : Fin 2) * 1024 + 1 * (y 1).val = (y 1).val; omega
  · intro y
    show V c main_arg3 (((cfg0.win 2).blk t).view.emb y) = V c main_arg3 y
    refine congrArg _ (funext fun a => Fin.ext ?_)
    match a with
    | ⟨0, _⟩ => show win0_2.index t (0 : Fin 1) * 1024 + 1 * (y 0).val = (y 0).val; omega

/-- What the point writes back to the second output window: its block of the squared column norms of that encoding. -/
theorem flushed0_4 (c : Dev nD) (t : Fin cfg0.N) :
    (dat0 V c).flushed 4 t = ((cfg0.win 4).blk t).view.read (Elt Ideal) (colSq (encT (V c main_arg1) (V c main_arg2) (V c main_arg3))) := by
  show (cfg0.win 4).cut (grid0.coords t) ((dat0 V c).after 4 t) = _
  rw [after0_4]
  unfold out0_4
  rw [View.canon_unit_zero hz2]
  simp only [View.ld_unit_zero (S := S1000x1024) hz2, View.ld_unit_zero (S := S1024x1024) hz2, View.ld_unit_zero (S := S1024) hz1]
  obtain ⟨e00, e01, e10, e11, e20, e30, e31, e40, e41⟩ := idx0 t
  funext j
  show k0_pay2 (F := Ideal) (iblk0 V c 0 t) (iblk0 V c 1 t) (iblk0 V c 2 t) j
    = colSq (encT (V c main_arg1) (V c main_arg2) (V c main_arg3)) (((cfg0.win 4).blk t).view.emb j)
  have hj : ((cfg0.win 4).blk t).view.emb j = j := by
    funext a; apply Fin.ext
    match a with
    | ⟨0, _⟩ => show win0_4.index t (0 : Fin 2) * 1 + 1 * (j 0).val = (j 0).val; omega
    | ⟨1, _⟩ => show win0_4.index t (1 : Fin 2) * 1000 + 1 * (j 1).val = (j 1).val; omega
  rw [hj]
  refine (congrFun (pay2_eq (iblk0 V c 0 t) (iblk0 V c 1 t) (iblk0 V c 2 t)) j).trans ?_
  refine congrFun (congrArg colSq (encT_congr (V c main_arg1) (iblk0 V c 0 t) (V c main_arg2) (iblk0 V c 1 t) (V c main_arg3) (iblk0 V c 2 t) ?_ ?_ ?_)) j
  · intro y
    show V c main_arg1 (((cfg0.win 0).blk t).view.emb y) = V c main_arg1 y
    refine congrArg _ (funext fun a => Fin.ext ?_)
    match a with
    | ⟨0, _⟩ => show win0_0.index t (0 : Fin 2) * 1000 + 1 * (y 0).val = (y 0).val; omega
    | ⟨1, _⟩ => show win0_0.index t (1 : Fin 2) * 1024 + 1 * (y 1).val = (y 1).val; omega
  · intro y
    show V c main_arg2 (((cfg0.win 1).blk t).view.emb y) = V c main_arg2 y
    refine congrArg _ (funext fun a => Fin.ext ?_)
    match a with
    | ⟨0, _⟩ => show win0_1.index t (0 : Fin 2) * 1024 + 1 * (y 0).val = (y 0).val; omega
    | ⟨1, _⟩ => show win0_1.index t (1 : Fin 2) * 1024 + 1 * (y 1).val = (y 1).val; omega
  · intro y
    show V c main_arg3 (((cfg0.win 2).blk t).view.emb y) = V c main_arg3 y
    refine congrArg _ (funext fun a => Fin.ext ?_)
    match a with
    | ⟨0, _⟩ => show win0_2.index t (0 : Fin 1) * 1024 + 1 * (y 0).val = (y 0).val; omega

/-- An index of the first output array is in the point's block iff each coordinate is in the block's range. -/
theorem mem_blk0_3 (t : Fin cfg0.N) (i : S1024x1000.Idx) :
    i ∈ ((cfg0.win 3).blk t).view.set ↔ ∀ a : Fin 2, win0_3.index t a * S1024x1000.size a ≤ (i a).val ∧ (i a).val < win0_3.index t a * S1024x1000.size a + S1024x1000.size a := by
  show i ∈ ((View.whole main_v0_0).slice (win0_3.rect t)).set ↔ _
  rw [View.set_slice_whole, Rect.mem_set_unit]
  exact Iff.rfl

theorem mem_blk0_4 (t : Fin cfg0.N) (i : S1x1000.Idx) :
    i ∈ ((cfg0.win 4).blk t).view.set ↔ ∀ a : Fin 2, win0_4.index t a * S1x1000.size a ≤ (i a).val ∧ (i a).val < win0_4.index t a * S1x1000.size a + S1x1000.size a := by
  show i ∈ ((View.whole main_v0_1).slice (win0_4.rect t)).set ↔ _
  rw [View.set_slice_whole, Rect.mem_set_unit]
  exact Iff.rfl

/-- The transposed encoding after the encoder region. -/
theorem arr0_3 (c : Dev nD) : (dat0 V c).arrAt 3 cfg0.N = encT (V c main_arg1) (V c main_arg2) (V c main_arg3) :=
  (dat0 V c).arrAt_eq_of_cover 3 _ (fun t _ => flushed0_3 V c t) fun i => by
    refine ⟨⟨0, by decide⟩, flush0_3 _, ?_⟩
    rw [mem_blk0_3]
    obtain ⟨e00, e01, e10, e11, e20, e30, e31, e40, e41⟩ := idx0 ⟨0, by decide⟩
    have h0 : (i 0).val < 1024 := (i 0).isLt
    have h1 : (i 1).val < 1000 := (i 1).isLt
    intro a
    match a with
    | ⟨0, _⟩ => show win0_3.index ⟨0, by decide⟩ (0 : Fin 2) * 1024 ≤ (i 0).val ∧ (i 0).val < win0_3.index ⟨0, by decide⟩ (0 : Fin 2) * 1024 + 1024; omega
    | ⟨1, _⟩ => show win0_3.index ⟨0, by decide⟩ (1 : Fin 2) * 1000 ≤ (i 1).val ∧ (i 1).val < win0_3.index ⟨0, by decide⟩ (1 : Fin 2) * 1000 + 1000; omega

/-- The squared norms after the encoder region. -/
theorem arr0_4 (c : Dev nD) : (dat0 V c).arrAt 4 cfg0.N = colSq (encT (V c main_arg1) (V c main_arg2) (V c main_arg3)) :=
  (dat0 V c).arrAt_eq_of_cover 4 _ (fun t _ => flushed0_4 V c t) fun i => by
    refine ⟨⟨0, by decide⟩, flush0_4 _, ?_⟩
    rw [mem_blk0_4]
    obtain ⟨e00, e01, e10, e11, e20, e30, e31, e40, e41⟩ := idx0 ⟨0, by decide⟩
    have h0 : (i 0).val < 1 := (i 0).isLt
    have h1 : (i 1).val < 1000 := (i 1).isLt
    intro a
    match a with
    | ⟨0, _⟩ => show win0_4.index ⟨0, by decide⟩ (0 : Fin 2) * 1 ≤ (i 0).val ∧ (i 0).val < win0_4.index ⟨0, by decide⟩ (0 : Fin 2) * 1 + 1; omega
    | ⟨1, _⟩ => show win0_4.index ⟨0, by decide⟩ (1 : Fin 2) * 1000 ≤ (i 1).val ∧ (i 1).val < win0_4.index ⟨0, by decide⟩ (1 : Fin 2) * 1000 + 1000; omega

/-! ## The distance region -/

/-- Over the sixteen points: the row windows' block index is the point on the row axis, every other block index zero. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back: its block of the array of nearest-prototype distances, of the arrays the region finds. -/
theorem flushed1_3 (c : Dev nD) (t : Fin cfg1.N) :
    (dat1 V c).flushed 3 t = ((cfg1.win 3).blk t).view.read (Elt Ideal) (nearestArr (V c main_arg0) (V c main_v0_0) (V c main_v0_1)) := by
  show (cfg1.win 3).cut (grid1.coords t) ((dat1 V c).after 3 t) = _
  rw [after1_3]
  unfold out1_3
  rw [View.canon_unit_zero hz2]
  simp only [View.ld_unit_zero (S := S1024x1024) hz2, View.ld_unit_zero (S := S1024x1000) hz2, View.ld_unit_zero (S := S1x1000) hz2]
  obtain ⟨e00, e01, e10, e11, e20, e21, e30, e31⟩ := idx1 t
  have ht : t.val < 16 := t.isLt
  funext j
  obtain ⟨q, cc, rfl⟩ : ∃ (q : Fin 1024) (cc : Fin 100), j = ix2 q cc := ⟨j 0, j 1, eq_ix2 j⟩
  show k1_pay1 (F := Ideal) (iblk1 V c 0 t) (iblk1 V c 1 t) (iblk1 V c 2 t) (ix2 q cc)
    = nearestArr (V c main_arg0) (V c main_v0_0) (V c main_v0_1) (((cfg1.win 3).blk t).view.emb (ix2 q cc))
  have hq : q.val < 1024 := q.isLt
  have hj : ((cfg1.win 3).blk t).view.emb (ix2 q cc) = ix2 (⟨t.val * 1024 + q.val, by omega⟩ : Fin 16384) cc := by
    funext a; apply Fin.ext
    match a with
    | ⟨0, _⟩ => show win1_3.index t (0 : Fin 2) * 1024 + 1 * q.val = t.val * 1024 + q.val; omega
    | ⟨1, _⟩ => show win1_3.index t (1 : Fin 2) * 100 + 1 * cc.val = cc.val; omega
  rw [hj]
  refine (pay_dist_apply (iblk1 V c 0 t) (iblk1 V c 1 t) (iblk1 V c 2 t) q cc).trans ?_
  show nearest (iblk1 V c 0 t) (iblk1 V c 1 t) (iblk1 V c 2 t) q cc
    = nearest (V c main_arg0) (V c main_v0_0) (V c main_v0_1) (⟨t.val * 1024 + q.val, by omega⟩ : Fin 16384) cc
  refine nearest_congr (V c main_arg0) (iblk1 V c 0 t) (V c main_v0_0) (iblk1 V c 1 t) (V c main_v0_1) (iblk1 V c 2 t) _ q ?_ ?_ ?_ cc
  · intro f
    show V c main_arg0 (((cfg1.win 0).blk t).view.emb (ix2 q f)) = V c main_arg0 (ix2 (⟨t.val * 1024 + q.val, by omega⟩ : Fin 16384) f)
    refine congrArg _ (funext fun a => Fin.ext ?_)
    match a with
    | ⟨0, _⟩ => show win1_0.index t (0 : Fin 2) * 1024 + 1 * q.val = t.val * 1024 + q.val; omega
    | ⟨1, _⟩ => show win1_0.index t (1 : Fin 2) * 1024 + 1 * f.val = f.val; omega
  · intro y
    show V c main_v0_0 (((cfg1.win 1).blk t).view.emb y) = V c main_v0_0 y
    refine congrArg _ (funext fun a => Fin.ext ?_)
    match a with
    | ⟨0, _⟩ => show win1_1.index t (0 : Fin 2) * 1024 + 1 * (y 0).val = (y 0).val; omega
    | ⟨1, _⟩ => show win1_1.index t (1 : Fin 2) * 1000 + 1 * (y 1).val = (y 1).val; omega
  · intro y
    show V c main_v0_1 (((cfg1.win 2).blk t).view.emb y) = V c main_v0_1 y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 1000 + 1 * (y 1).val = (y 1).val; omega

/-- An index of the result array is in point `t`'s block iff each coordinate is in the block's range. -/
theorem mem_blk1_3 (t : Fin cfg1.N) (i : S16384x100.Idx) :
    i ∈ ((cfg1.win 3).blk t).view.set ↔ ∀ a : Fin 2, win1_3.index t a * S1024x100.size a ≤ (i a).val ∧ (i a).val < win1_3.index t a * S1024x100.size a + S1024x100.size a := by
  show i ∈ ((View.whole main_v1).slice (win1_3.rect t)).set ↔ _
  rw [View.set_slice_whole, Rect.mem_set_unit]
  exact Iff.rfl

/-- The result array after the distance region: the nearest-prototype distances of the arrays the region finds. Row `r`
    lies in the block of point `r / 1024`. -/
theorem arr1_3 (c : Dev nD) : (dat1 V c).arrAt 3 cfg1.N = nearestArr (V c main_arg0) (V c main_v0_0) (V c main_v0_1) :=
  (dat1 V c).arrAt_eq_of_cover 3 _ (fun t _ => flushed1_3 V c t) fun i => by
    have h0 : (i 0).val < 16384 := (i 0).isLt
    have h1 : (i 1).val < 100 := (i 1).isLt
    have hlt : (i 0).val / 1024 < cfg1.N := by show (i 0).val / 1024 < 16; omega
    refine ⟨⟨(i 0).val / 1024, hlt⟩, flush1_3 _, ?_⟩
    rw [mem_blk1_3]
    obtain ⟨e00, e01, e10, e11, e20, e21, e30, e31⟩ := idx1 ⟨(i 0).val / 1024, hlt⟩
    have e30' : win1_3.index ⟨(i 0).val / 1024, hlt⟩ (0 : Fin 2) = (i 0).val / 1024 := e30
    intro a
    match a with
    | ⟨0, _⟩ => show win1_3.index ⟨(i 0).val / 1024, hlt⟩ (0 : Fin 2) * 1024 ≤ (i 0).val ∧ (i 0).val < win1_3.index ⟨(i 0).val / 1024, hlt⟩ (0 : Fin 2) * 1024 + 1024; omega
    | ⟨1, _⟩ => show win1_3.index ⟨(i 0).val / 1024, hlt⟩ (1 : Fin 2) * 100 ≤ (i 1).val ∧ (i 1).val < win1_3.index ⟨(i 0).val / 1024, hlt⟩ (1 : Fin 2) * 100 + 100; omega

end Cert.KernelIdeal.Arr

end
-- ==== Proof.RefSpec.lean ====
/-
  The reference program, read one operation at a time, computes the specification's result: the encoding `P · W + b`, its
  squared row norms, the rows' squared norms, the inner products against the transposed encoding, the expanded squared
  distance, clamp and root of each of the 1000 distances, and — after regrouping the 1000 columns as 10 × 100 — the
  minimum over the ten prototypes of each class, folded from `+∞`. The last step meets the specification through
  `nearest_eq_fold` (a monotone map commutes with the minimum).
-/
import proofs.«120972_j86114094284878_1_alg».proof.Proof.Gen.ReferenceIdeal.Read
import proofs.«120972_j86114094284878_1_alg».proof.Proof.Spec
import Idealize.ShloMosaic.Lib.ValueIdx
import Idealize.ShloMosaic.PureOps.Ideal.Laws

noncomputable section

namespace Cert.ReferenceIdeal.RefSpec

open Cert.ReferenceIdeal Cert.ReferenceIdeal.Gen Cert.ReferenceIdeal.Read
open Idealize.ShloMosaic Idealize.ShloMosaic.ValueIdx Cert.Dist

variable (X : (⟨S16384x1024, .f32⟩ : BufTy).Contents (Elt Ideal)) (P : (⟨S1000x1024, .f32⟩ : BufTy).Contents (Elt Ideal))
  (W : (⟨S1024x1024, .f32⟩ : BufTy).Contents (Elt Ideal)) (b : (⟨S1024, .f32⟩ : BufTy).Contents (Elt Ideal))

/-- The encoding at `(n, f)` is the specification's transposed encoding at `(f, n)`. -/
theorem v3_at (n : Fin 1000) (f : Fin 1024) : val_main_v3 (F := Ideal) P W b (ix2 n f) = encT P W b (ix2 f n) := by
  rw [val_main_v3_apply, val_main_v0_apply, val_main_v2_apply, val_main_v1_apply]
  have e1 : idx_main_v1 (idx_main_v2 (ix2 n f)) = ix1 f := funext fun a => Fin.ext (by match a with | ⟨0, _⟩ => rfl)
  have el : ∀ k : Fin 1024, lidx_main_v0 (ix2 n f) k = ix2 n k := fun k => funext fun a => Fin.ext (by match a with | ⟨0, _⟩ => rfl | ⟨1, _⟩ => rfl)
  have er : ∀ k : Fin 1024, ridx_main_v0 (ix2 n f) k = ix2 k f := fun k => funext fun a => Fin.ext (by match a with | ⟨0, _⟩ => rfl | ⟨1, _⟩ => rfl)
  simp only [e1, el, er]
  rfl

/-- The squared norm of encoded prototype `n`. -/
theorem v8_at (n : Fin 1000) : val_main_v8 (F := Ideal) P W b (ix1 n) = colSq (encT P W b) (ix2 (0 : Fin 1) n) := by
  rw [val_main_v8_apply]
  show Ideal.ofBits .f32 0x00000000#32 + _ = _
  rw [Ideal.ofBits_zero_f32, zero_add]
  unfold colSq
  refine Finset.sum_congr rfl fun k _ => ?_
  have e : idx_main_v8 (ix1 n) k = ix2 n k := funext fun a => Fin.ext (by match a with | ⟨0, _⟩ => rfl | ⟨1, _⟩ => rfl)
  rw [e, val_main_v7_apply, v3_at]
  rfl

/-- The squared norm of row `r`. -/
theorem v5_at (r : Fin 16384) : val_main_v5 (F := Ideal) X (ix1 r) = rowSq X r := by
  rw [val_main_v5_apply]
  show Ideal.ofBits .f32 0x00000000#32 + _ = _
  rw [Ideal.ofBits_zero_f32, zero_add]
  unfold rowSq
  refine Finset.sum_congr rfl fun k _ => ?_
  have e : idx_main_v5 (ix1 r) k = ix2 r k := funext fun a => Fin.ext (by match a with | ⟨0, _⟩ => rfl | ⟨1, _⟩ => rfl)
  rw [e, val_main_v4_apply]
  rfl

/-- The inner product of row `r` with encoded prototype `n`. -/
theorem v10_at (r : Fin 16384) (n : Fin 1000) : val_main_v10 (F := Ideal) X P W b (ix2 r n) = cross X (encT P W b) r n := by
  rw [val_main_v10_apply]
  unfold cross
  refine Finset.sum_congr rfl fun k _ => ?_
  have el : lidx_main_v10 (ix2 r n) k = ix2 r k := funext fun a => Fin.ext (by match a with | ⟨0, _⟩ => rfl | ⟨1, _⟩ => rfl)
  have er : idx_main_v9 (ridx_main_v10 (ix2 r n) k) = ix2 n k := funext fun a => Fin.ext (by match a with | ⟨0, _⟩ => rfl | ⟨1, _⟩ => rfl)
  rw [el, val_main_v9_apply, er, v3_at]

/-- The expanded squared distance from row `r` to encoded prototype `n`. -/
theorem v17_at (r : Fin 16384) (n : Fin 1000) :
    val_main_v17 (F := Ideal) X P W b (ix2 r n) = sqDist X (encT P W b) (colSq (encT P W b)) r n := by
  rw [val_main_v17_apply, val_main_v14_apply, val_main_v13_apply, val_main_v6_apply, val_main_v12_apply, val_main_v11_apply,
    val_main_v16_apply, val_main_v15_apply, v10_at]
  have e5 : idx_main_v6 (idx_main_v13 (ix2 r n)) = ix1 r := funext fun a => Fin.ext (by match a with | ⟨0, _⟩ => rfl)
  have e8 : idx_main_v15 (idx_main_v16 (ix2 r n)) = ix1 n := funext fun a => Fin.ext (by match a with | ⟨0, _⟩ => rfl)
  rw [e5, e8, v5_at, v8_at]
  rfl

/-- Clamp and root of the squared distance, in the regrouped `[16384, 10, 100]` array. -/
theorem v21_at (r : Fin 16384) (p : Fin 10) (c : Fin 100) :
    val_main_v21 (F := Ideal) X P W b (ix3 r p c) = clampSqrt (sqDist X (encT P W b) (colSq (encT P W b)) r (protoIdx p c)) := by
  rw [val_main_v21_apply]
  have e : idx_main_v21 (ix3 r p c) = ix2 r (protoIdx p c) := funext fun a => Fin.ext (by
    have hr := r.isLt; have hp := p.isLt; have hc := c.isLt
    match a with
    | ⟨0, _⟩ => show ((r.val * 10 + p.val) * 100 + c.val) / 1000 = r.val; omega
    | ⟨1, _⟩ => show ((r.val * 10 + p.val) * 100 + c.val) % 1000 = p.val * 100 + c.val; omega)
  rw [e, val_main_v20_apply, val_main_v19_apply, val_main_v18_apply, v17_at]
  rfl

/-- The reference's result is the specification's. -/
theorem ref_eq : val_main_v22 (F := Ideal) X P W b = Cert.Dist.result X P W b := by
  funext j
  obtain ⟨r, c, rfl⟩ : ∃ (r : Fin 16384) (c : Fin 100), j = ix2 r c := ⟨j 0, j 1, eq_ix2 j⟩
  have hred : S16384x10x100.Reduces [1] S16384x100 := by decide
  unfold val_main_v22
  rw [Host.reduce_eq_fold_single FloatOps.minimumf _ _ reducesTo_S16384x10x100_S16384x100_d1 hred h_S_ (ix2 r c)]
  have hfun : (val_main_v21 (F := Ideal) X P W b ∘ hred.lift (ix2 r c))
      = fun p : Fin 10 => clampSqrt (sqDist X (encT P W b) (colSq (encT P W b)) r (protoIdx p c)) := by
    funext p
    have hl : hred.lift (ix2 r c) p = ix3 r p c := funext fun a => Fin.ext (by
      match a with
      | ⟨0, _⟩ => rfl
      | ⟨1, _⟩ => rfl
      | ⟨2, _⟩ => rfl)
    show val_main_v21 (F := Ideal) X P W b (hred.lift (ix2 r c) p) = _
    rw [hl]
    exact v21_at X P W b r p c
  rw [hfun]
  exact nearest_eq_fold X (encT P W b) (colSq (encT P W b)) r c

end Cert.ReferenceIdeal.RefSpec

end
-- ==== Proof.lean ====
/-
  The kernel computes, for 16384 rows `x r` of 1024 features and 1000 prototypes in 10 groups of 100 classes, the distance
  from each row to the nearest encoded prototype of each class. An encoder region forms `e = P · W + b`, stores its
  transpose and the squared norm of each encoded prototype; a distance region, over sixteen blocks of 1024 rows, expands
  `‖x r − e n‖²` as `(‖x r‖² − 2 (x r · e n)) + ‖e n‖²`, takes the minimum over the ten prototypes `n = 100 p + c` of class `c`,
  clamps at zero and takes the square root. The reference forms the same expanded squared distances for all 1000
  prototypes, clamps and takes the root of each, regroups them as 10 × 100 and takes the minimum over the ten.

  Over the extended reals a change of float format is the identity, a matrix product into a zero accumulator and the
  host's contraction are the same finite sum, and so are the two ways of summing squares; the two programs then differ
  only in the order of "minimum" and "clamp and root", and `a ↦ √(max a 0)` is monotone (the root of a negative number is
  the bottom element, the root of `+∞` is `+∞`), so it commutes with the minimum of ten values. The inputs' finiteness is
  never used.

  The kernel's result array is read off its two regions' runs: the encoder region's one block per window is the whole
  array; the distance region's sixteen row blocks cover the result, and a row's distances depend on `x` only through
  that row. The reference's result is its run's term read one operation at a time.
-/
import proofs.«120972_j86114094284878_1_alg».proof.Defs
import proofs.«120972_j86114094284878_1_alg».proof.Proof.Gen.Kernel
import proofs.«120972_j86114094284878_1_alg».proof.Proof.Gen.Kernel.Skeleton
import proofs.«120972_j86114094284878_1_alg».proof.Proof.Gen.Kernel.Launch
import proofs.«120972_j86114094284878_1_alg».proof.Proof.Gen.Kernel.Points
import proofs.«120972_j86114094284878_1_alg».proof.Proof.Gen.Kernel.Frame
import proofs.«120972_j86114094284878_1_alg».proof.Proof.Gen.KernelIdeal
import proofs.«120972_j86114094284878_1_alg».proof.Proof.Gen.KernelIdeal.Skeleton
import proofs.«120972_j86114094284878_1_alg».proof.Proof.Gen.KernelIdeal.Launch
import proofs.«120972_j86114094284878_1_alg».proof.Proof.Gen.KernelIdeal.Points
import proofs.«120972_j86114094284878_1_alg».proof.Proof.Gen.KernelIdeal.Frame
import proofs.«120972_j86114094284878_1_alg».proof.Proof.Gen.ReferenceIdeal
import proofs.«120972_j86114094284878_1_alg».proof.Proof.Gen.ReferenceIdeal.Run
import proofs.«120972_j86114094284878_1_alg».proof.Proof.Gen.ReferenceIdeal.Read
import proofs.«120972_j86114094284878_1_alg».proof.Proof.Gen.Pre_finite_inputs
import proofs.«120972_j86114094284878_1_alg».proof.Proof.KernelRun
import proofs.«120972_j86114094284878_1_alg».proof.Proof.KernelArrays
import proofs.«120972_j86114094284878_1_alg».proof.Proof.RefSpec
import Idealize.ShloMosaic.Adequacy
import Idealize.ShloMosaic.Init

noncomputable section

namespace Cert.Proof

open Idealize.ShloMosaic Idealize.ShloMosaic.TcCoe Idealize.SL.Sem

section KernelValue

open Cert.KernelIdeal Cert.KernelIdeal.Gen

/-- What the distance region's write-backs leave in the result array, from the launch memory: the encoder region's two
    output arrays are the transposed encoding of the launched arguments and its squared norms, `x` is as launched, and
    the distance region maps these to the specification's result. -/
theorem kernel_value (m : (ℓ : Loc nD τ sig) → Buf (Elt Ideal) ℓ) (ρ : Dev nD → PrngReg) (c : Dev nD) :
    (dat1 (V1 m ρ) c).arrAt 3 cfg1.N
      = Cert.Dist.result (m ((c.tc : Thread nD τ).loc main_arg0)) (m ((c.tc : Thread nD τ).loc main_arg1))
          (m ((c.tc : Thread nD τ).loc main_arg2)) (m ((c.tc : Thread nD τ).loc main_arg3)) := by
  rw [Cert.KernelIdeal.Arr.arr1_3 (V1 m ρ) c]
  have h0 : V1 m ρ c main_arg0 = m ((c.tc : Thread nD τ).loc main_arg0) := (W1_of_ne m ρ c main_arg0 (by decide)).trans rfl
  have h1 : V1 m ρ c main_v0_0 = (dat0 (V0 m ρ) c).arrAt 3 cfg0.N := W1_arr m ρ c 3
  have h2 : V1 m ρ c main_v0_1 = (dat0 (V0 m ρ) c).arrAt 4 cfg0.N := W1_arr m ρ c 4
  rw [h0, h1, h2, Cert.KernelIdeal.Arr.arr0_3, Cert.KernelIdeal.Arr.arr0_4]
  rfl

end KernelValue

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read over the extended reals. -/
theorem preserves : Cert.preserves_Kernel_KernelIdeal := trivial

/-- Both programs end with the specification's result of arguments that agree. -/
theorem algebraic : Cert.algebraic_KernelIdeal_ReferenceIdeal := by
  intro m ρ m' ρ' _ hagree
  refine ⟨fun c => Cert.Dist.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun r h c => ⟨(h c).1.trans (kernel_value m ρ c), (h c).2⟩)
      (Cert.KernelIdeal.GenRun.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v22_eq, Cert.ReferenceIdeal.RefSpec.ref_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
